-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S1x8192 : Shape := ⟨2, ![1, 8192]⟩
abbrev S512x8192 : Shape := ⟨2, ![512, 8192]⟩
abbrev S512x1 : Shape := ⟨2, ![512, 1]⟩
abbrev S512 : Shape := ⟨1, ![512]⟩
abbrev S8192 : Shape := ⟨1, ![8192]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S1x8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1x8192, .f32⟩
  | .local _ .vmem, ⟨5, _⟩ => ⟨S1x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v14 : BitVec 1 := Scalar.cmpi .eq arg0 c15_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x8192_S8192 : S512x8192.Reduces [0] S8192
  shapeCasts_S8192_S1x8192 : S8192.ShapeCasts S1x8192
  shapeCasts_S8192x1_S8192 : S8192x1.ShapeCasts S8192
  shapeCasts_S1x8192_S8192 : S1x8192.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8192.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192x8192_S8192_d0 : S8192x8192.ReducesTo [0] S8192
  reducesTo_S8192_S_d0 : S8192.ReducesTo [0] S_

variable [Facts₀]

class Facts : Prop extends Facts₀ where

variable [Facts]
-- ==== Proof.Pieces.lean ====
/-
  What one run of the body leaves in its three buffers, in each of its three cases, as the body's
  own stored values of what it loaded.

  The body runs once per block `x` of 512 rows. It always stores the block's row totals into the
  row-sum buffer and the accumulator plus the block's column totals into the accumulator. What
  differs by case is what the accumulator held when it was read and whether it is copied out:
    * first block: the accumulator is first overwritten with the zero block, and the update reads
      that zero block back;
    * a block in the middle: the update reads what the block before left;
    * last block: as in the middle, and then the accumulator, just updated, is copied to the
      column-sum buffer, so that buffer holds the same updated value.
  Each store covers its whole buffer, so the buffer's contents afterwards are the stored value; a
  load after a covering store reads the stored value. All of this holds at any float instance.
-/
import proofs.«142905_j13082470383973_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- First block: the row-sum buffer holds the block's row totals. -/
theorem rows_A (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : cond0_0 i) (hc1 : ¬cond0_1 i)
    (x : Vec F S512x8192 .f32) :
    out0_A_1 c i a1 h1 a2 h2 a3 h3 a4 h4 hc0 hc1 x = k0_pay2 x := by
  unfold out0_A_1
  rw [View.read_writes_eq_canon _ _ _ (cover0_A_1 c i a1 h1 a2 h2 a3 h3 a4 h4 hc0 hc1 x)]
  unfold kernelRun0_A
  dsimp only
  sl_unfold_words
  rw [View.canon_unit_zero hz]
  simp only [View.readAt_eq_ld, h1.read_unread, View.ld_unit_zero (S := S512x8192) hz]

/-- First block: the accumulator holds the zero block plus the block's column totals. -/
theorem acc_A (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : cond0_0 i) (hc1 : ¬cond0_1 i)
    (x : Vec F S512x8192 .f32) :
    sout0_A_0 c i a1 h1 a2 h2 a3 h3 a4 h4 hc0 hc1 x = k0_pay3 x k0_pay1 := by
  unfold sout0_A_0
  rw [View.read_writes_eq_canon _ _ _ (scover0_A_0 c i a1 h1 a2 h2 a3 h3 a4 h4 hc0 hc1 x)]
  unfold kernelRun0_A
  dsimp only
  sl_unfold_words
  rw [View.canon_cons_unit_zero (S := S1x8192) hz, View.readCov_unit_zero (S := S1x8192) _ hz]
  simp only [View.readAt_eq_ld, h1.read_unread, View.ld_unit_zero (S := S512x8192) hz]

/-- A middle block: the row-sum buffer holds the block's row totals. -/
theorem rows_B (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : ¬cond0_0 i) (hc1 : ¬cond0_1 i)
    (x : Vec F S512x8192 .f32) (xs : Vec F S1x8192 .f32) :
    out0_B_1 c i a1 h1 a2 h2 a3 h3 a4 h4 hc0 hc1 x xs = k0_pay2 x := by
  unfold out0_B_1
  rw [View.read_writes_eq_canon _ _ _ (cover0_B_1 c i a1 h1 a2 h2 a3 h3 a4 h4 hc0 hc1 x xs)]
  unfold kernelRun0_B
  dsimp only
  sl_unfold_words
  rw [View.canon_unit_zero hz]
  simp only [View.readAt_eq_ld, h1.read_unread, View.ld_unit_zero (S := S512x8192) hz]

/-- A middle block: the accumulator holds what it held plus the block's column totals. -/
theorem acc_B (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : ¬cond0_0 i) (hc1 : ¬cond0_1 i)
    (x : Vec F S512x8192 .f32) (xs : Vec F S1x8192 .f32) :
    sout0_B_0 c i a1 h1 a2 h2 a3 h3 a4 h4 hc0 hc1 x xs = k0_pay3 x xs := by
  unfold sout0_B_0
  rw [View.read_writes_eq_canon _ _ _ (scover0_B_0 c i a1 h1 a2 h2 a3 h3 a4 h4 hc0 hc1 x xs)]
  unfold kernelRun0_B
  dsimp only
  sl_unfold_words
  rw [View.canon_unit_zero hz]
  simp only [View.readAt_eq_ld, h1.read_unread, h4.read_unread, View.ld_unit_zero (S := S512x8192) hz, View.ld_unit_zero (S := S1x8192) hz]

/-- Last block: the row-sum buffer holds the block's row totals. -/
theorem rows_C (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : ¬cond0_0 i) (hc1 : cond0_1 i)
    (x : Vec F S512x8192 .f32) (xs : Vec F S1x8192 .f32) :
    out0_C_1 c i a1 h1 a2 h2 a3 h3 a4 h4 hc0 hc1 x xs = k0_pay2 x := by
  unfold out0_C_1
  rw [View.read_writes_eq_canon _ _ _ (cover0_C_1 c i a1 h1 a2 h2 a3 h3 a4 h4 hc0 hc1 x xs)]
  unfold kernelRun0_C
  dsimp only
  sl_unfold_words
  rw [View.canon_unit_zero hz]
  simp only [View.readAt_eq_ld, h1.read_unread, View.ld_unit_zero (S := S512x8192) hz]

/-- Last block: the accumulator holds what it held plus the block's column totals. -/
theorem acc_C (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : ¬cond0_0 i) (hc1 : cond0_1 i)
    (x : Vec F S512x8192 .f32) (xs : Vec F S1x8192 .f32) :
    sout0_C_0 c i a1 h1 a2 h2 a3 h3 a4 h4 hc0 hc1 x xs = k0_pay3 x xs := by
  unfold sout0_C_0
  rw [View.read_writes_eq_canon _ _ _ (scover0_C_0 c i a1 h1 a2 h2 a3 h3 a4 h4 hc0 hc1 x xs)]
  unfold kernelRun0_C
  dsimp only
  sl_unfold_words
  rw [View.canon_unit_zero hz]
  simp only [View.readAt_eq_ld, h1.read_unread, h4.read_unread, View.ld_unit_zero (S := S512x8192) hz, View.ld_unit_zero (S := S1x8192) hz]

/-- Last block: the column-sum buffer holds the accumulator's updated value. -/
theorem cols_C (c : Dev nD) (i : grid0.Coords) (a1 : Memref sig .tc .vmem S512x8192 .f32) (h1 : a1.IsWhole)
    (a2 : Memref sig .tc .vmem S512x1 .f32) (h2 : a2.IsWhole) (a3 : Memref sig .tc .vmem S1x8192 .f32) (h3 : a3.IsWhole)
    (a4 : Memref sig .tc .vmem S1x8192 .f32) (h4 : a4.IsWhole) (hc0 : ¬cond0_0 i) (hc1 : cond0_1 i)
    (x : Vec F S512x8192 .f32) (xs : Vec F S1x8192 .f32) :
    out0_C_2 c i a1 h1 a2 h2 a3 h3 a4 h4 hc0 hc1 x xs = k0_pay3 x xs := by
  unfold out0_C_2
  rw [View.read_writes_eq_canon _ _ _ (cover0_C_2 c i a1 h1 a2 h2 a3 h3 a4 h4 hc0 hc1 x xs)]
  unfold kernelRun0_C
  dsimp only
  sl_unfold_words
  rw [View.canon_unit_zero hz, View.readCov_unit_zero (S := S1x8192) _ hz]
  simp only [View.readAt_eq_ld, h1.read_unread, h4.read_unread, View.ld_unit_zero (S := S512x8192) hz, View.ld_unit_zero (S := S1x8192) hz]

end Cert.KernelIdeal.Pieces

end
-- ==== Proof.Payloads.lean ====
/-
  The body's three stored values, read at an index over the extended reals.

  A block is 512 rows of the 8192-column matrix. The body stores, per block `x`:
    * into the row-sum output, for each row `p` of the block, the total of that row: `∑ k, x (p, k)`
      (a lane reduction with no initial term, then a cast of `[512]` to the column `[512, 1]`);
    * into the accumulator at the first block, zero;
    * into the accumulator at every block, for each column `j`, what it held plus the block's
      column total `∑ p, x (p, j)` (a reduction over the rows, cast from `[8192]` to the row `[1, 8192]`).
-/
import proofs.«142905_j13082470383973_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row-sum payload at row `p` of the block: the total of that row. -/
theorem rowTotals_apply (x : Vec Ideal S512x8192 .f32) (p : Fin 512) (u : Fin 1) :
    k0_pay2 (F := Ideal) x (ix2 p u) = ∑ k : Fin 8192, x (ix2 p k) := by
  unfold k0_pay2
  refine (shapeCast_a_a1_apply _ _ p u).trans ?_
  refine (Ideal.multiReduction_add_single x _ reduces_S512x8192_S512 _ _ (ix1 p)).trans ?_
  refine Finset.sum_congr rfl fun k _ => congrArg x ?_
  funext a
  match a with
  | ⟨0, _⟩ => rfl
  | ⟨1, _⟩ => rfl

/-- The reset payload is zero everywhere. -/
theorem zeros_apply (y : S1x8192.Idx) : k0_pay1 (F := Ideal) y = 0 := by
  unfold k0_pay1
  rw [shapeCast_self]
  exact Ideal.ofBits_zero_f32

/-- The accumulator payload at column `j`: what the accumulator held there plus the block's column total. -/
theorem colTotals_apply (x : Vec Ideal S512x8192 .f32) (acc : Vec Ideal S1x8192 .f32) (u : Fin 1) (j : Fin 8192) :
    k0_pay3 (F := Ideal) x acc (ix2 u j) = acc (ix2 u j) + ∑ p : Fin 512, x (ix2 p j) := by
  unfold k0_pay3
  rw [shapeCast_self]
  refine (addf_apply _ _ _).trans (congrArg (acc (ix2 u j) + ·) ?_)
  refine (shapeCast_a_1a_apply _ _ u j).trans ?_
  refine (Ideal.multiReduction_add_single x _ reduces_S512x8192_S8192 _ _ (ix1 j)).trans ?_
  refine Finset.sum_congr rfl fun p _ => congrArg x ?_
  funext a
  match a with
  | ⟨0, _⟩ => rfl
  | ⟨1, _⟩ => rfl

end Cert.KernelIdeal.Payloads

end
-- ==== Proof.Regroup.lean ====
/-
  Sums over the 8192 rows of a matrix, regrouped by blocks of 512 rows.

  Row `i` of 8192 is row `p` of block `t` exactly when `i = 512·t + p` with `t < 16`, `p < 512`:
  the pairs `(t, p)` and the rows `i` are in bijection (quotient and remainder by 512). In any
  commutative additive monoid — the extended reals among them — a sum over the rows is therefore
  the sum over the blocks of the sums inside each block, and the left-nested running total
  `((z + B 0) + B 1) + … + B n` is `z` plus the sum of the first `n + 1` block totals. No
  cancellation or distributivity is used, so nothing here asks the summands to be finite.
-/
import Idealize.ShloMosaic.Lib.ValueIdx

namespace Cert.Regroup

/-- Row `512·t + p`, for ANY natural `t`: reduced modulo 8192 so that the function is total (a
    running total is indexed by a natural number); for `t < 16` nothing is reduced. -/
def blockRow (t : ℕ) (p : Fin 512) : Fin 8192 := ⟨(512 * t + p.val) % 8192, Nat.mod_lt _ (by decide)⟩

theorem blockRow_val {t : ℕ} (ht : t < 16) (p : Fin 512) : (blockRow t p).val = 512 * t + p.val := by
  have hp := p.isLt
  show (512 * t + p.val) % 8192 = _
  exact Nat.mod_eq_of_lt (by omega)

/-- Quotient and remainder by 512: rows are pairs (block, row inside the block). -/
def blockEquiv : Fin 16 × Fin 512 ≃ Fin 8192 where
  toFun tp := ⟨512 * tp.1.val + tp.2.val, by have := tp.1.isLt; have := tp.2.isLt; omega⟩
  invFun i := (⟨i.val / 512, by have := i.isLt; omega⟩, ⟨i.val % 512, Nat.mod_lt _ (by decide)⟩)
  left_inv tp := by
    obtain ⟨⟨t, ht⟩, ⟨p, hp⟩⟩ := tp
    refine Prod.ext (Fin.ext ?_) (Fin.ext ?_)
    · show (512 * t + p) / 512 = t
      omega
    · show (512 * t + p) % 512 = p
      omega
  right_inv i := by
    apply Fin.ext
    show 512 * (i.val / 512) + i.val % 512 = i.val
    omega

theorem blockEquiv_eq_blockRow (t : Fin 16) (p : Fin 512) : blockEquiv (t, p) = blockRow t.val p :=
  Fin.ext (blockRow_val t.isLt p).symm

variable {M : Type*} [AddCommMonoid M]

/-- The sum over all rows is the sum over the 16 blocks of the sums over each block's 512 rows. -/
theorem sum_blocks (f : Fin 8192 → M) :
    ∑ t ∈ Finset.range 16, ∑ p : Fin 512, f (blockRow t p) = ∑ i : Fin 8192, f i := by
  rw [Finset.sum_range (fun t => ∑ p : Fin 512, f (blockRow t p))]
  rw [← Equiv.sum_comp blockEquiv f, Fintype.sum_prod_type]
  exact Finset.sum_congr rfl fun t _ => Finset.sum_congr rfl fun p _ => by rw [blockEquiv_eq_blockRow]

/-- The left-nested running total of block totals `B` from `z`. -/
def runSum (z : M) (B : ℕ → M) : ℕ → M
  | 0 => z + B 0
  | n + 1 => runSum z B n + B (n + 1)

theorem runSum_eq (z : M) (B : ℕ → M) (n : ℕ) : runSum z B n = z + ∑ t ∈ Finset.range (n + 1), B t := by
  induction n with
  | zero => simp [runSum]
  | succ n ih => rw [runSum, ih, Finset.sum_range_succ _ (n + 1), add_assoc]

/-- After the last block the running total from `z` is `z` plus the sum over all the rows. -/
theorem runSum_blocks (z : M) (f : Fin 8192 → M) :
    runSum z (fun t => ∑ p : Fin 512, f (blockRow t p)) 15 = z + ∑ i : Fin 8192, f i := by
  rw [runSum_eq, sum_blocks]

end Cert.Regroup
-- ==== Proof.Arrays.lean ====
/-
  What the region leaves in its two output arrays, as whole-array functions of the matrix `flow`.

  The grid has 16 points; point `t` works on block `t`: rows `512·t … 512·t + 511`, all 8192 columns.
    * Row sums. Every point stores, for each row of its block, that row's total, and writes the
      `[512, 1]` block back at rows `512·t …` of the `[8192, 1]` output: the output ends holding, at row
      `i`, `∑ k, flow (i, k)`.
    * Column sums. The accumulator is zeroed at point 0 and every point adds its block's column
      totals: after point `n` it holds, at column `j`, the left-nested running total
      `((0 + B 0) + B 1) + … + B n` with `B t = ∑ p, flow (512·t + p, j)` (induction on the point). Only
      the last point copies the accumulator out, and its one block is the whole `[1, 8192]` output:
      the output ends holding, at column `j`, `0 + ∑ i, flow (i, j)` (the 16 blocks of 512 rows are all
      the rows).
-/
import proofs.«142905_j13082470383973_1_alg».proof.Proof.Pieces
import proofs.«142905_j13082470383973_1_alg».proof.Proof.Payloads
import proofs.«142905_j13082470383973_1_alg».proof.Proof.Regroup

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Regroup

variable (m : (ℓ : Loc nD τ sig) → Buf (Elt Ideal) ℓ) (ρ : Dev nD → PrngReg)

/-- The matrix as the region finds it. -/
abbrev flow (c : Dev nD) : Vec Ideal S8192x8192 .f32 := V m c main_arg0

/-- Block `t` of the matrix, as the body loads it at point `t`. -/
abbrev blk (c : Dev nD) (t : Fin cfg0.N) : Vec Ideal S512x8192 .f32 := iblk m c 0 t

theorem lt16 (t : Fin cfg0.N) : t.val < 16 := lt_of_lt_of_eq t.isLt (show cfg0.N = 16 from N_0)

/-- The printed index maps over the grid: the input and the row-sum output move one block of rows
    per point; the column-sum output's block never moves. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row `p` of block `t` is row `512·t + p` of the matrix. -/
theorem blk_apply (c : Dev nD) (t : Fin cfg0.N) (p : Fin 512) (k : Fin 8192) :
    blk m c t (ix2 p k) = flow m c (ix2 (blockRow t.val p) k) := by
  show iblk m c 0 t (ix2 p k) = _
  unfold iblk
  rw [View.read_apply]
  show V m c main_arg0 _ = V m c main_arg0 _
  refine congrArg (V m c main_arg0) ?_
  obtain ⟨e0, e1, -⟩ := idx_facts t
  have hN := lt16 t
  have hp := p.isLt
  funext a; apply Fin.ext
  match a with
  | ⟨0, _⟩ => show win0_0.index t (0 : Fin 2) * 512 + 1 * p.val = (blockRow t.val p).val; rw [e0, blockRow_val hN]; omega
  | ⟨1, _⟩ => show win0_0.index t (1 : Fin 2) * 8192 + 1 * k.val = k.val; rw [e1]; omega

/-! ## After each point -/

/-- The row-sum staging buffer after point `t`: the row totals of block `t`, in every case. -/
theorem rows_eq (c : Dev nD) (t : Fin cfg0.N) : (outsAt0 m c t.val t.isLt).1 = k0_pay2 (blk m c t) := by
  have hN := lt16 t
  by_cases h0 : t.val % 16 = 0
  · have h1 : ¬t.val % 16 = 15 := by omega
    rw [outsAt0_A m c t h0 h1]
    dsimp only
    exact Pieces.rows_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t)
  · by_cases h1 : t.val % 16 = 15
    · rw [outsAt0_C m c t h0 h1]
      dsimp only
      exact Pieces.rows_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2
    · rw [outsAt0_B m c t h0 h1]
      dsimp only
      exact Pieces.rows_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2

/-- Block `t`'s total of column `j`, for any natural `t`. -/
abbrev blockTotal (c : Dev nD) (j : Fin 8192) (t : ℕ) : EReal := ∑ p : Fin 512, flow m c (ix2 (blockRow t p) j)

/-- The accumulator after point `n`: the running total of the block totals up to `n`, column by column. -/
theorem acc_eq (c : Dev nD) : ∀ (n : ℕ) (hn : n < cfg0.N) (u : Fin 1) (j : Fin 8192),
    (outsAt0 m c n hn).2.2 (ix2 u j) = runSum (0 : EReal) (blockTotal m c j) n
  | 0, hn, u, j => by
    have h0 : (⟨0, hn⟩ : Fin cfg0.N).val % 16 = 0 := rfl
    have h1 : ¬(⟨0, hn⟩ : Fin cfg0.N).val % 16 = 15 := by show ¬(0 : ℕ) % 16 = 15; decide
    let t : Fin cfg0.N := ⟨0, hn⟩
    rw [show outsAt0 m c 0 hn = _ from outsAt0_A m c t h0 h1]
    dsimp only
    refine (congrFun (Pieces.acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t)) (ix2 u j)).trans ?_
    refine (Payloads.colTotals_apply (blk m c t) (k0_pay1 (F := Ideal)) u j).trans ?_
    show _ = (0 : EReal) + blockTotal m c j 0
    exact congrArg₂ (· + ·) (Payloads.zeros_apply _) (Finset.sum_congr rfl fun p _ => blk_apply m c t p j)
  | n + 1, hn, u, j => by
    let t : Fin cfg0.N := ⟨n + 1, hn⟩
    have hN := lt16 t
    have h0 : ¬t.val % 16 = 0 := by show ¬(n + 1) % 16 = 0; have : n + 1 < 16 := hN; omega
    have ih := acc_eq c n (Nat.lt_of_succ_lt hn) u j
    by_cases h1 : t.val % 16 = 15
    · rw [show outsAt0 m c (n + 1) hn = _ from outsAt0_C m c t h0 h1]
      dsimp only
      refine (congrFun (Pieces.acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2) (ix2 u j)).trans ?_
      refine (Payloads.colTotals_apply (blk m c t) _ u j).trans ?_
      show (outsAt0 m c n _).2.2 (ix2 u j) + _ = runSum (0 : EReal) (blockTotal m c j) n + blockTotal m c j (n + 1)
      exact congrArg₂ (· + ·) ih (Finset.sum_congr rfl fun p _ => blk_apply m c t p j)
    · rw [show outsAt0 m c (n + 1) hn = _ from outsAt0_B m c t h0 h1]
      dsimp only
      refine (congrFun (Pieces.acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2) (ix2 u j)).trans ?_
      refine (Payloads.colTotals_apply (blk m c t) _ u j).trans ?_
      show (outsAt0 m c n _).2.2 (ix2 u j) + _ = runSum (0 : EReal) (blockTotal m c j) n + blockTotal m c j (n + 1)
      exact congrArg₂ (· + ·) ih (Finset.sum_congr rfl fun p _ => blk_apply m c t p j)

/-- At the last point the column-sum staging buffer is a copy of the accumulator. -/
theorem cols_last (c : Dev nD) (t : Fin cfg0.N) (h1 : t.val % 16 = 15) :
    (outsAt0 m c t.val t.isLt).2.1 = (outsAt0 m c t.val t.isLt).2.2 := by
  have hN := lt16 t
  have h0 : ¬t.val % 16 = 0 := by omega
  rw [outsAt0_C m c t h0 h1]
  dsimp only
  exact (Pieces.cols_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2).trans
    (Pieces.acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2.2).symm

/-! ## The output arrays after the run -/

/-- The row sums of the matrix, as contents of the `[8192, 1]` output. -/
def rowSums (c : Dev nD) : Vec Ideal S8192x1 .f32 :=
  fun i => ∑ k : Fin 8192, flow m c (ix2 (i 0) k)

/-- The column sums of the matrix from zero, as contents of the `[1, 8192]` output. -/
def colSums (c : Dev nD) : Vec Ideal S1x8192 .f32 :=
  fun i => (0 : EReal) + ∑ r : Fin 8192, flow m c (ix2 r (i 1))

/-- The row totals of block `t` are the matrix's row sums at rows `512·t + p`. -/
theorem rowTotals_block (c : Dev nD) (t : Fin cfg0.N) (y : S512x1.Idx) :
    k0_pay2 (blk m c t) y = ∑ k : Fin 8192, flow m c (ix2 (blockRow t.val (y 0)) k) := by
  obtain ⟨p, u, rfl⟩ : ∃ (p : Fin 512) (u : Fin 1), y = ix2 p u := ⟨y 0, y 1, eq_ix2 y⟩
  refine (Payloads.rowTotals_apply (blk m c t) p u).trans ?_
  exact Finset.sum_congr rfl fun k _ => blk_apply m c t p k

/-- What point `t` writes back into the row-sum output is block `t` of the row sums. -/
theorem flushed_rows (c : Dev nD) (t : Fin cfg0.N) :
    (dats m 0 c).flushed 1 t = ((cfg0.win 1).blk t).view.read (Elt Ideal) (rowSums m c) := by
  show (cfg0.win 1).cut (grid0.coords t) ((dats m 0 c).after 1 t) = _
  rw [after0_1, rows_eq]
  funext y
  rw [View.read_apply]
  show k0_pay2 (blk m c t) y = rowSums m c (((cfg0.win 1).blk t).view.emb y)
  refine (rowTotals_block m c t y).trans ?_
  obtain ⟨-, -, e2, e3, -⟩ := idx_facts t
  have hN := lt16 t
  have hb : (blockRow t.val (y 0)).val = 512 * t.val + (y 0).val := blockRow_val hN (y 0)
  refine Finset.sum_congr rfl fun k _ => congrArg (flow m c) ?_
  funext a; apply Fin.ext
  match a with
  | ⟨0, _⟩ => show (blockRow t.val (y 0)).val = win0_1.index t (0 : Fin 2) * 512 + 1 * (y 0).val; rw [e2, hb]; omega
  | ⟨1, _⟩ => rfl

/-- An index of the row-sum output is in point `t`'s block iff its row is one of the block's 512. -/
theorem mem_rows (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- The row-sum output after the run: row `i` lies in block `i / 512`, which point `i / 512` wrote. -/
theorem final_rows (c : Dev nD) : (dats m 0 c).arrAt 1 cfg0.N = rowSums m c :=
  (dats m 0 c).arrAt_eq_of_cover 1 (rowSums m c) (fun t _ => flushed_rows m c t) fun i => by
    have hi0 : (i 0).val < 8192 := (i 0).isLt
    have hi1 : (i 1).val < 1 := (i 1).isLt
    let t : Fin cfg0.N := ⟨(i 0).val / 512, lt_of_lt_of_eq (by omega) N_0.symm⟩
    refine ⟨t, flush0_1 t, ?_⟩
    rw [mem_rows]
    obtain ⟨-, -, e2, e3, -⟩ := idx_facts t
    intro a
    match a with
    | ⟨0, _⟩ =>
      show win0_1.index t (0 : Fin 2) * 512 ≤ (i 0).val ∧ (i 0).val < win0_1.index t (0 : Fin 2) * 512 + 512
      rw [e2]
      show (i 0).val / 512 * 512 ≤ (i 0).val ∧ (i 0).val < (i 0).val / 512 * 512 + 512
      omega
    | ⟨1, _⟩ =>
      show win0_1.index t (1 : Fin 2) * 1 ≤ (i 1).val ∧ (i 1).val < win0_1.index t (1 : Fin 2) * 1 + 1
      rw [e3]
      omega

/-- After the last point the accumulator holds, at column `j`, zero plus the whole column's sum. -/
theorem acc_last (c : Dev nD) (t : Fin cfg0.N) (ht : t.val = 15) (y : S1x8192.Idx) :
    (outsAt0 m c t.val t.isLt).2.2 y = (0 : EReal) + ∑ r : Fin 8192, flow m c (ix2 r (y 1)) := by
  obtain ⟨u, j, rfl⟩ : ∃ (u : Fin 1) (j : Fin 8192), y = ix2 u j := ⟨y 0, y 1, eq_ix2 y⟩
  refine (acc_eq m c t.val t.isLt u j).trans ?_
  rw [ht]
  exact runSum_blocks (0 : EReal) (fun r => flow m c (ix2 r j))

/-- The one write-back into the column-sum output, at the last point, writes the column sums. -/
theorem flushed_cols (c : Dev nD) (t : Fin cfg0.N) (hf : (cfg0.win 2).flush t = true) :
    (dats m 0 c).flushed 2 t = ((cfg0.win 2).blk t).view.read (Elt Ideal) (colSums m c) := by
  have h15 : t.val % 16 = 15 := (flush0_2 t).mp hf
  have hN := lt16 t
  have ht : t.val = 15 := by omega
  show (cfg0.win 2).cut (grid0.coords t) ((dats m 0 c).after 2 t) = _
  rw [after0_2, cols_last m c t h15]
  funext y
  rw [View.read_apply]
  show (outsAt0 m c t.val t.isLt).2.2 y = colSums m c (((cfg0.win 2).blk t).view.emb y)
  refine (acc_last m c t ht y).trans ?_
  obtain ⟨-, -, -, -, e4, e5⟩ := idx_facts t
  refine congrArg ((0 : EReal) + ·) (Finset.sum_congr rfl fun r _ => congrArg (flow m c) ?_)
  funext a; apply Fin.ext
  match a with
  | ⟨0, _⟩ => rfl
  | ⟨1, _⟩ => show (y 1).val = win0_2.index t (1 : Fin 2) * 8192 + 1 * (y 1).val; rw [e5]; omega

/-- Every index of the column-sum output is in its one block. -/
theorem mem_cols (t : Fin cfg0.N) (i : S1x8192.Idx) :
    i ∈ ((cfg0.win 2).blk t).view.set ↔ ∀ a : Fin 2, win0_2.index t a * S1x8192.size a ≤ (i a).val ∧ (i a).val < win0_2.index t a * S1x8192.size a + S1x8192.size a := by
  show i ∈ ((View.whole main_v0_1).slice (win0_2.rect t)).set ↔ _
  rw [View.set_slice_whole, Rect.mem_set_unit]
  exact Iff.rfl

/-- The column-sum output after the run: the last point's block is the whole array. -/
theorem final_cols (c : Dev nD) : (dats m 0 c).arrAt 2 cfg0.N = colSums m c :=
  (dats m 0 c).arrAt_eq_of_cover 2 (colSums m c) (flushed_cols m c) fun i => by
    have hi0 : (i 0).val < 1 := (i 0).isLt
    have hi1 : (i 1).val < 8192 := (i 1).isLt
    refine ⟨t0_15, (flush0_2 t0_15).mpr rfl, ?_⟩
    rw [mem_cols]
    obtain ⟨-, -, -, -, e4, e5⟩ := idx_facts t0_15
    intro a
    match a with
    | ⟨0, _⟩ =>
      show win0_2.index t0_15 (0 : Fin 2) * 1 ≤ (i 0).val ∧ (i 0).val < win0_2.index t0_15 (0 : Fin 2) * 1 + 1
      rw [e4]
      omega
    | ⟨1, _⟩ =>
      show win0_2.index t0_15 (1 : Fin 2) * 8192 ≤ (i 1).val ∧ (i 1).val < win0_2.index t0_15 (1 : Fin 2) * 8192 + 8192
      rw [e5]
      omega

end Cert.KernelIdeal.Arrays

end
-- ==== Proof.Spec.lean ====
/-
  The two vectors both programs subtract: for a matrix `x` of 8192 × 8192 extended reals,
  `rowSum x i = ∑ k, x (i, k)` and `colSum x i = ∑ r, x (r, i)`. The result of either program is the sum
  over `i` of `|rowSum x i − colSum x i|` from zero, computed by the same three host operations on
  both sides, so it is enough that each program's two operands are these two vectors.
-/
import Idealize.ShloMosaic.Lib.ValueIdx

noncomputable section

open Idealize.ShloMosaic Idealize.ShloMosaic.ValueIdx

namespace Cert.Spec

abbrev Mat : Shape := ⟨2, ![8192, 8192]⟩
abbrev Row : Shape := ⟨1, ![8192]⟩

/-- The sum of each row. -/
def rowSum (x : Mat.Idx → EReal) : Row.Idx → EReal := fun i => ∑ k : Fin 8192, x (ix2 (i 0) k)

/-- The sum of each column. -/
def colSum (x : Mat.Idx → EReal) : Row.Idx → EReal := fun i => ∑ r : Fin 8192, x (ix2 r (i 0))

end Cert.Spec

end
-- ==== Proof.KernelValue.lean ====
/-
  The idealized kernel's result. After the region, @main reshapes the `[8192, 1]` row sums and the
  `[1, 8192]` column sums to vectors of 8192, subtracts, takes absolute values and sums from zero.
  The two reshapes keep each entry at its row-major place, so the two operands of the subtraction are
  the matrix's row sums and column sums.
-/
import proofs.«142905_j13082470383973_1_alg».proof.Proof.Arrays
import proofs.«142905_j13082470383973_1_alg».proof.Proof.Spec
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Arrays

variable (m : (ℓ : Loc nD τ sig) → Buf (Elt Ideal) ℓ) (ρ : Dev nD → PrngReg)

/-- A column `[a, 1]` cast to the vector `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The reshaped row-sum output is the row sums. -/
theorem rows_vec (c : Dev nD) :
    shapeCast S8192 (rowSums m c) shapeCasts_S8192x1_S8192 = Cert.Spec.rowSum (flow m c) := by
  funext i
  obtain ⟨r, rfl⟩ : ∃ r : Fin 8192, i = ix1 r := ⟨i 0, eq_ix1 i⟩
  exact shapeCast_a1_a_apply _ _ r

/-- The reshaped column-sum output is the column sums (the accumulator's starting zero adds nothing). -/
theorem cols_vec (c : Dev nD) :
    shapeCast S8192 (colSums m c) shapeCasts_S1x8192_S8192 = Cert.Spec.colSum (flow m c) := by
  funext i
  obtain ⟨r, rfl⟩ : ∃ r : Fin 8192, i = ix1 r := ⟨i 0, eq_ix1 i⟩
  refine (shapeCast_1a_a_apply _ _ r).trans ?_
  exact zero_add _

/-- The result: the sum from zero of the absolute differences of the row sums and the column sums. -/
def result (c : Dev nD) : Buf (Elt Ideal) ((c : Thread nD τ).loc main_v5) :=
  Host.reduceAdd (F := Ideal) (Host.absf (subf (Cert.Spec.rowSum (flow m c)) (Cert.Spec.colSum (flow m c))))
    (constant S_ .f32 0x00000000#32) reducesTo_S8192_S_d0 h_S_

/-- The host operations after the region, run on what the region left, end at that result. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hr : Pipeline.withArrays (cfgs 0).spec c (V0 m c) (fun w => (dats m 0 c).arrAt w (cfgs 0).N) (Proc.devRef .tc main_v0_0)
      = rowSums m c := (Pipeline.withArrays_arr spec0 launch0.win.arr_inj c _ _ 1).trans (final_rows m c)
  have hc : Pipeline.withArrays (cfgs 0).spec c (V0 m c) (fun w => (dats m 0 c).arrAt w (cfgs 0).N) (Proc.devRef .tc main_v0_1)
      = colSums m c := (Pipeline.withArrays_arr spec0 launch0.win.arr_inj c _ _ 2).trans (final_cols m c)
  rw [hr, hc]
  show Host.reduceAdd (F := Ideal) (Host.absf (subf (shapeCast S8192 (rowSums m c) shapeCasts_S8192x1_S8192)
      (shapeCast S8192 (colSums m c) shapeCasts_S1x8192_S8192))) (constant S_ .f32 0x00000000#32) reducesTo_S8192_S_d0 h_S_ = _
  rw [rows_vec, cols_vec]
  rfl

/-- The result buffer is written by the host operations after the region: it is unscoped and no window's array. -/
theorem result_rest : main_v5 ∈ Pipeline.restRefs sig (cfgs 0).spec :=
  Pipeline.mem_restRefs_of main_v5 rfl (fun w => by fin_cases w <;> decide)

/-- The run, read: every weakly fair execution of the idealized kernel ends with the result buffer at
    `result` and the matrix unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0) :=
  (θ_run defs _ _).mono (fun r h c => ⟨((h c).2 main_v5 result_rest).trans (tail_eq m c),
      ((h c).1 0).trans (((dats m 0 c).arrAt_in 0 rfl _).trans ((A_eq m c 0).trans (V_main_arg0 m c)))⟩)
    (run_main m ρ)

end Cert.KernelIdeal.Result

end
-- ==== Proof.RefValue.lean ====
/-
  The reference's two operands. `flow.sum(axis=1)` and `flow.sum(axis=0)` are host reductions from a
  zero initial value; over the extended reals a host reduction along one axis is the initial value
  plus the sum over that axis's coordinates, and the initial value is `0`: the two operands are the
  row sums and the column sums of the matrix.
-/
import proofs.«142905_j13082470383973_1_alg».proof.Defs
import proofs.«142905_j13082470383973_1_alg».proof.Proof.Gen.ReferenceIdeal.Run
import proofs.«142905_j13082470383973_1_alg».proof.Proof.Gen.ReferenceIdeal.Read
import proofs.«142905_j13082470383973_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read

/-- The initial value of each reduction, the f32 zero word, is the extended real `0`. -/
theorem init_zero (i : S_.Idx) : constant (F := Ideal) S_ .f32 0x00000000#32 i = 0 := Ideal.ofBits_zero_f32

/-- The reduction along the columns (axis 1) is the row sums. -/
theorem rows_eq (x : Vec Ideal S8192x8192 .f32) :
    Host.reduceAdd (F := Ideal) x (constant S_ .f32 0x00000000#32) reducesTo_S8192x8192_S8192_d1 h_S_ = Cert.Spec.rowSum x := by
  funext i
  refine (val_main_v0_apply x i).trans ?_
  refine (congrArg (· + _) (init_zero _)).trans ((zero_add _).trans ?_)
  exact Finset.sum_congr rfl fun k _ => congrArg x (funext fun a => Fin.ext (by match a with | ⟨0, _⟩ => rfl | ⟨1, _⟩ => rfl))

/-- The reduction along the rows (axis 0) is the column sums. -/
theorem cols_eq (x : Vec Ideal S8192x8192 .f32) :
    Host.reduceAdd (F := Ideal) x (constant S_ .f32 0x00000000#32) reducesTo_S8192x8192_S8192_d0 h_S_ = Cert.Spec.colSum x := by
  funext i
  refine (val_main_v1_apply x i).trans ?_
  refine (congrArg (· + _) (init_zero _)).trans ((zero_add _).trans ?_)
  exact Finset.sum_congr rfl fun k _ => congrArg x (funext fun a => Fin.ext (by match a with | ⟨0, _⟩ => rfl | ⟨1, _⟩ => rfl))

end Cert.ReferenceIdeal.RefValue

end
-- ==== Proof.lean ====
/-
  The mass-balance loss of a square matrix `flow` of 8192 × 8192 floats: with
  `rowSum i = ∑ k, flow (i, k)` and `colSum i = ∑ r, flow (r, i)`, the result is
  `∑ i, |rowSum i − colSum i|`, summed from zero.

  The reference computes the two vectors by two host reductions of the whole matrix. The kernel
  reads the matrix once, in 16 blocks of 512 rows: each block's row totals are rows
  `512·t … 512·t + 511` of the row sums, and each block's column totals are added into an
  accumulator that starts at zero, so that after the last block it holds, column by column,
  `((0 + B 0) + B 1) + … + B 15` with `B t` the block's column total. Over the extended reals
  addition is commutative and associative, so this running total is zero plus the sum over all
  8192 rows (rows are pairs of a block and a row inside it: quotient and remainder by 512), and
  `0 + s = s`. No step cancels or distributes, so the finiteness of the inputs is never used.
  Both programs then apply the same subtraction, absolute value and final sum to the same two
  vectors, which is why that last stretch is never opened: equal operands give equal results.

  The idealization rewrote nothing, so `preserves` is `True`. The three frames are the generated
  frame certificates (the reference's is its generated run with the result dropped).
-/
import proofs.«142905_j13082470383973_1_alg».proof.Defs
import proofs.«142905_j13082470383973_1_alg».proof.Proof.Gen.Kernel
import proofs.«142905_j13082470383973_1_alg».proof.Proof.Gen.Kernel.Frame
import proofs.«142905_j13082470383973_1_alg».proof.Proof.Gen.KernelIdeal
import proofs.«142905_j13082470383973_1_alg».proof.Proof.Gen.KernelIdeal.Frame
import proofs.«142905_j13082470383973_1_alg».proof.Proof.Gen.ReferenceIdeal
import proofs.«142905_j13082470383973_1_alg».proof.Proof.Gen.Pre_finite_inputs
import proofs.«142905_j13082470383973_1_alg».proof.Proof.KernelValue
import proofs.«142905_j13082470383973_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From matrices that agree, the idealized kernel ends at the final sum over the matrix's row sums
    and column sums, and the reference at the same final sum over its two reductions, which are
    those row sums and column sums. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.RefValue.rows_eq, Cert.ReferenceIdeal.RefValue.cols_eq]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
